-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v44)) (v1 : (c : Dev Cert.KernelIdeal.nD) → Buf (Elt Ideal) ((c.tc : Thread Cert.KernelIdeal.nD Cert.KernelIdeal.τ).loc Cert.KernelIdeal.main_v51)) (v2 : (c : Dev Cert.KernelIdeal.nD) → Buf (Elt Ideal) ((c.tc : Thread Cert.KernelIdeal.nD Cert.KernelIdeal.τ).loc Cert.KernelIdeal.main_v53)) (v3 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v44) = v0 c
          ∧ r.2.mem ((c.tc : Thread Cert.KernelIdeal.nD Cert.KernelIdeal.τ).loc Cert.KernelIdeal.main_v51) = v1 c
          ∧ r.2.mem ((c.tc : Thread Cert.KernelIdeal.nD Cert.KernelIdeal.τ).loc Cert.KernelIdeal.main_v53) = v2 c
          ∧ r.2.mem ((c.tc : Thread Cert.KernelIdeal.nD Cert.KernelIdeal.τ).loc Cert.KernelIdeal.main_v22) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_v56) = v1 c
          ∧ r.2.mem ((c.tc : Thread Cert.ReferenceIdeal.nD Cert.ReferenceIdeal.τ).loc Cert.ReferenceIdeal.main_v58) = v2 c
          ∧ r.2.mem ((c.tc : Thread Cert.ReferenceIdeal.nD Cert.ReferenceIdeal.τ).loc Cert.ReferenceIdeal.main_v23) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x100000 : Shape := ⟨2, ![8, 100000]⟩
abbrev S2x3200000 : Shape := ⟨2, ![2, 3200000]⟩
abbrev S3200000x2 : Shape := ⟨2, ![3200000, 2]⟩
abbrev S64 : Shape := ⟨1, ![64]⟩
abbrev S1 : Shape := ⟨1, ![1]⟩
abbrev S_ : Shape := ⟨0, ![]⟩

class Facts : Prop where
  bcast_S_S8x100000 : S_.BroadcastsInDim S8x100000 (![] : Fin 0 → Fin S8x100000.rank)
  reducesTo_S8x100000_S_d0_1 : S8x100000.ReducesTo [0, 1] S_
  h_S_ : 0 < S_.numel
  bcast_S_S3200000x2 : S_.BroadcastsInDim S3200000x2 (![] : Fin 0 → Fin S3200000x2.rank)
  reducesTo_S3200000x2_S_d0_1 : S3200000x2.ReducesTo [0, 1] S_
  bcast_S_S1 : S_.BroadcastsInDim S1 (![] : Fin 0 → Fin S1.rank)
  reducesTo_S1_S_d0 : S1.ReducesTo [0] S_
  bcast_S_S64 : S_.BroadcastsInDim S64 (![] : Fin 0 → Fin S64.rank)
  reducesTo_S64_S_d0 : S64.ReducesTo [0] S_

variable [Facts]

def fn_part1 {F : FTy → Type} [FloatOps F] (main_arg4 : IVec S64 32) (main_v13 : IVec S_ 1) (main_v16 : IVec S1 1) : IVec S_ 1 :=
  let main_c_5 : IVec S_ 1 := constantI S_ 1 1#1
  let main_v17 : IVec S_ 1 := (fun x v => Host.reduce IntOp.andi x v reducesTo_S1_S_d0 h_S_) main_v16 main_c_5
  let main_v18 : IVec S_ 1 := andi main_v13 main_v17
  let main_c_6 : IVec S_ 32 := constantI S_ 32 4294867296#32
  let main_v19 : IVec S64 32 := broadcastInDim S64 ![] bcast_S_S64 main_c_6
  let main_v20 : IVec S64 1 := cmpi .sge main_arg4 main_v19
  let main_c_7 : IVec S_ 1 := constantI S_ 1 1#1
  let main_v21 : IVec S_ 1 := (fun x v => Host.reduce IntOp.andi x v reducesTo_S64_S_d0 h_S_) main_v20 main_c_7
  let main_v22 : IVec S_ 1 := andi main_v18 main_v21
  let main_c_8 : IVec S_ 32 := constantI S_ 32 100000#32
  let main_v23 : IVec S64 32 := broadcastInDim S64 ![] bcast_S_S64 main_c_8
  let main_v24 : IVec S64 1 := cmpi .slt main_arg4 main_v23
  let main_c_9 : IVec S_ 1 := constantI S_ 1 1#1
  let main_v25 : IVec S_ 1 := (fun x v => Host.reduce IntOp.andi x v reducesTo_S64_S_d0 h_S_) main_v24 main_c_9
  let main_v26 : IVec S_ 1 := andi main_v22 main_v25
  main_v26

def fn {F : FTy → Type} [FloatOps F] (main_arg0 : FVec F S8x100000 .f32) (main_arg1 : FVec F S8x100000 .f32) (main_arg2 : IVec S2x3200000 32) (main_arg3 : FVec F S3200000x2 .f32) (main_arg4 : IVec S64 32) (main_arg5 : FVec F S1 .f32) : IVec S_ 1 :=
  let main_v0 : FVec F S8x100000 .f32 := Host.absf main_arg0
  let main_cst : FVec F S_ .f32 := constant S_ .f32 0x7F800000#32
  let main_v1 : FVec F S8x100000 .f32 := broadcastInDim S8x100000 ![] bcast_S_S8x100000 main_cst
  let main_v2 : IVec S8x100000 1 := cmpf .olt main_v0 main_v1
  let main_c : IVec S_ 1 := constantI S_ 1 1#1
  let main_v3 : IVec S_ 1 := (fun x v => Host.reduce IntOp.andi x v reducesTo_S8x100000_S_d0_1 h_S_) main_v2 main_c
  let main_v4 : FVec F S8x100000 .f32 := Host.absf main_arg1
  let main_cst_0 : FVec F S_ .f32 := constant S_ .f32 0x7F800000#32
  let main_v5 : FVec F S8x100000 .f32 := broadcastInDim S8x100000 ![] bcast_S_S8x100000 main_cst_0
  let main_v6 : IVec S8x100000 1 := cmpf .olt main_v4 main_v5
  let main_c_1 : IVec S_ 1 := constantI S_ 1 1#1
  let main_v7 : IVec S_ 1 := (fun x v => Host.reduce IntOp.andi x v reducesTo_S8x100000_S_d0_1 h_S_) main_v6 main_c_1
  let main_v8 : IVec S_ 1 := andi main_v3 main_v7
  let main_v9 : FVec F S3200000x2 .f32 := Host.absf main_arg3
  let main_cst_2 : FVec F S_ .f32 := constant S_ .f32 0x7F800000#32
  let main_v10 : FVec F S3200000x2 .f32 := broadcastInDim S3200000x2 ![] bcast_S_S3200000x2 main_cst_2
  let main_v11 : IVec S3200000x2 1 := cmpf .olt main_v9 main_v10
  let main_c_3 : IVec S_ 1 := constantI S_ 1 1#1
  let main_v12 : IVec S_ 1 := (fun x v => Host.reduce IntOp.andi x v reducesTo_S3200000x2_S_d0_1 h_S_) main_v11 main_c_3
  let main_v13 : IVec S_ 1 := andi main_v8 main_v12
  let main_v14 : FVec F S1 .f32 := Host.absf main_arg5
  let main_cst_4 : FVec F S_ .f32 := constant S_ .f32 0x7F800000#32
  let main_v15 : FVec F S1 .f32 := broadcastInDim S1 ![] bcast_S_S1 main_cst_4
  let main_v16 : IVec S1 1 := cmpf .olt main_v14 main_v15
  fn_part1 (F := F) main_arg4 main_v13 main_v16
-- ==== Kernel.lean ====
abbrev S8x100000 : Shape := ⟨2, ![8, 100000]⟩
abbrev S2x3200000 : Shape := ⟨2, ![2, 3200000]⟩
abbrev S3200000x2 : Shape := ⟨2, ![3200000, 2]⟩
abbrev S64 : Shape := ⟨1, ![64]⟩
abbrev S1 : Shape := ⟨1, ![1]⟩
abbrev S1x3200000 : Shape := ⟨2, ![1, 3200000]⟩
abbrev S3200000 : Shape := ⟨1, ![3200000]⟩
abbrev S3200000x1 : Shape := ⟨2, ![3200000, 1]⟩
abbrev S_ : Shape := ⟨0, ![]⟩
abbrev S8x3200000 : Shape := ⟨2, ![8, 3200000]⟩
abbrev S8x64000 : Shape := ⟨2, ![8, 64000]⟩
abbrev S1x64000 : Shape := ⟨2, ![1, 64000]⟩
abbrev S64x1 : Shape := ⟨2, ![64, 1]⟩
abbrev S1x1 : Shape := ⟨2, ![1, 1]⟩
abbrev S8x64 : Shape := ⟨2, ![8, 64]⟩

abbrev nBuf : Space → Nat
  | .hbm => 97
  | .vmem => 6
  | .smem => 0
  | _ => 0

abbrev bufTy : (tb : Table) → Fin (tcTables nBuf tb) → BufTy
  | .hbm, ⟨0, _⟩ => ⟨S8x100000, .f32⟩
  | .hbm, ⟨1, _⟩ => ⟨S8x100000, .f32⟩
  | .hbm, ⟨2, _⟩ => ⟨S2x3200000, .i32⟩
  | .hbm, ⟨3, _⟩ => ⟨S3200000x2, .f32⟩
  | .hbm, ⟨4, _⟩ => ⟨S64, .i32⟩
  | .hbm, ⟨5, _⟩ => ⟨S1, .f32⟩
  | .hbm, ⟨6, _⟩ => ⟨S1x3200000, .i32⟩
  | .hbm, ⟨7, _⟩ => ⟨S3200000, .i32⟩
  | .hbm, ⟨8, _⟩ => ⟨S1x3200000, .i32⟩
  | .hbm, ⟨9, _⟩ => ⟨S3200000, .i32⟩
  | .hbm, ⟨10, _⟩ => ⟨S3200000x1, .f32⟩
  | .hbm, ⟨11, _⟩ => ⟨S3200000, .f32⟩
  | .hbm, ⟨12, _⟩ => ⟨S1x3200000, .f32⟩
  | .hbm, ⟨13, _⟩ => ⟨S_, .i32⟩
  | .hbm, ⟨14, _⟩ => ⟨S3200000, .i32⟩
  | .hbm, ⟨15, _⟩ => ⟨S3200000, .i1⟩
  | .hbm, ⟨16, _⟩ => ⟨S_, .i32⟩
  | .hbm, ⟨17, _⟩ => ⟨S3200000, .i32⟩
  | .hbm, ⟨18, _⟩ => ⟨S3200000, .i32⟩
  | .hbm, ⟨19, _⟩ => ⟨S3200000, .i32⟩
  | .hbm, ⟨20, _⟩ => ⟨S3200000x1, .i32⟩
  | .hbm, ⟨21, _⟩ => ⟨S8x3200000, .f32⟩
  | .hbm, ⟨22, _⟩ => ⟨S_, .i32⟩
  | .hbm, ⟨23, _⟩ => ⟨S3200000, .i32⟩
  | .hbm, ⟨24, _⟩ => ⟨S3200000, .i1⟩
  | .hbm, ⟨25, _⟩ => ⟨S_, .i32⟩
  | .hbm, ⟨26, _⟩ => ⟨S3200000, .i32⟩
  | .hbm, ⟨27, _⟩ => ⟨S3200000, .i32⟩
  | .hbm, ⟨28, _⟩ => ⟨S3200000, .i32⟩
  | .hbm, ⟨29, _⟩ => ⟨S3200000x1, .i32⟩
  | .hbm, ⟨30, _⟩ => ⟨S8x3200000, .f32⟩
  | .hbm, ⟨31, _⟩ => ⟨S8x3200000, .f32⟩
  | .hbm, ⟨32, _⟩ => ⟨S8x3200000, .f32⟩
  | .hbm, ⟨33, _⟩ => ⟨S_, .f32⟩
  | .hbm, ⟨34, _⟩ => ⟨S8x100000, .f32⟩
  | .hbm, ⟨35, _⟩ => ⟨S_, .i32⟩
  | .hbm, ⟨36, _⟩ => ⟨S3200000, .i32⟩
  | .hbm, ⟨37, _⟩ => ⟨S3200000, .i1⟩
  | .hbm, ⟨38, _⟩ => ⟨S_, .i32⟩
  | .hbm, ⟨39, _⟩ => ⟨S3200000, .i32⟩
  | .hbm, ⟨40, _⟩ => ⟨S3200000, .i32⟩
  | .hbm, ⟨41, _⟩ => ⟨S3200000, .i32⟩
  | .hbm, ⟨42, _⟩ => ⟨S3200000x1, .i32⟩
  | .hbm, ⟨43, _⟩ => ⟨S8x100000, .f32⟩
  | .hbm, ⟨44, _⟩ => ⟨S_, .f32⟩
  | .hbm, ⟨45, _⟩ => ⟨S8x100000, .f32⟩
  | .hbm, ⟨46, _⟩ => ⟨S8x3200000, .f32⟩
  | .hbm, ⟨47, _⟩ => ⟨S_, .i32⟩
  | .hbm, ⟨48, _⟩ => ⟨S3200000, .i32⟩
  | .hbm, ⟨49, _⟩ => ⟨S3200000, .i1⟩
  | .hbm, ⟨50, _⟩ => ⟨S_, .i32⟩
  | .hbm, ⟨51, _⟩ => ⟨S3200000, .i32⟩
  | .hbm, ⟨52, _⟩ => ⟨S3200000, .i32⟩
  | .hbm, ⟨53, _⟩ => ⟨S3200000, .i32⟩
  | .hbm, ⟨54, _⟩ => ⟨S3200000x1, .i32⟩
  | .hbm, ⟨55, _⟩ => ⟨S8x100000, .f32⟩
  | .hbm, ⟨56, _⟩ => ⟨S8x100000, .f32⟩
  | .hbm, ⟨57, _⟩ => ⟨S8x100000, .f32⟩
  | .hbm, ⟨58, _⟩ => ⟨S8x100000, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S_, .i32⟩
  | .hbm, ⟨64, _⟩ => ⟨S64, .i32⟩
  | .hbm, ⟨65, _⟩ => ⟨S64, .i1⟩
  | .hbm, ⟨66, _⟩ => ⟨S_, .i32⟩
  | .hbm, ⟨67, _⟩ => ⟨S64, .i32⟩
  | .hbm, ⟨68, _⟩ => ⟨S64, .i32⟩
  | .hbm, ⟨69, _⟩ => ⟨S64, .i32⟩
  | .hbm, ⟨70, _⟩ => ⟨S64x1, .i32⟩
  | .hbm, ⟨71, _⟩ => ⟨S1, .i32⟩
  | .hbm, ⟨72, _⟩ => ⟨S_, .i32⟩
  | .hbm, ⟨73, _⟩ => ⟨S64x1, .i32⟩
  | .hbm, ⟨74, _⟩ => ⟨S64x1, .i1⟩
  | .hbm, ⟨75, _⟩ => ⟨S1x1, .i32⟩
  | .hbm, ⟨76, _⟩ => ⟨S64x1, .i32⟩
  | .hbm, ⟨77, _⟩ => ⟨S64x1, .i1⟩
  | .hbm, ⟨78, _⟩ => ⟨S64x1, .i1⟩
  | .hbm, ⟨79, _⟩ => ⟨S_, .i1⟩
  | .hbm, ⟨80, _⟩ => ⟨S64, .i1⟩
  | .hbm, ⟨81, _⟩ => ⟨S8x64, .f32⟩
  | .hbm, ⟨82, _⟩ => ⟨S8x64, .i1⟩
  | .hbm, ⟨83, _⟩ => ⟨S_, .f32⟩
  | .hbm, ⟨84, _⟩ => ⟨S8x64, .f32⟩
  | .hbm, ⟨85, _⟩ => ⟨S8x64, .f32⟩
  | .hbm, ⟨86, _⟩ => ⟨S_, .f32⟩
  | .hbm, ⟨87, _⟩ => ⟨S8x64, .f32⟩
  | .hbm, ⟨88, _⟩ => ⟨S8x64, .f32⟩
  | .hbm, ⟨89, _⟩ => ⟨S8x64, .f32⟩
  | .hbm, ⟨90, _⟩ => ⟨S_, .f32⟩
  | .hbm, ⟨91, _⟩ => ⟨S_, .f32⟩
  | .hbm, ⟨92, _⟩ => ⟨S_, .f32⟩
  | .hbm, ⟨93, _⟩ => ⟨S_, .f32⟩
  | .hbm, ⟨94, _⟩ => ⟨S_, .f32⟩
  | .hbm, ⟨95, _⟩ => ⟨S_, .f32⟩
  | .hbm, ⟨96, _⟩ => ⟨S_, .f32⟩
  | .local _ .vmem, ⟨0, _⟩ => ⟨S8x64000, .f32⟩
  | .local _ .vmem, ⟨1, _⟩ => ⟨S8x64000, .f32⟩
  | .local _ .vmem, ⟨2, _⟩ => ⟨S1x64000, .f32⟩
  | .local _ .vmem, ⟨3, _⟩ => ⟨S1x64000, .f32⟩
  | .local _ .vmem, ⟨4, _⟩ => ⟨S8x64000, .f32⟩
  | .local _ .vmem, ⟨5, _⟩ => ⟨S8x64000, .f32⟩
  | _, _ => ⟨S8x100000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_c : Ref sig .tc := ⟨.hbm, 13, rfl⟩
abbrev main_v7 : Ref sig .tc := ⟨.hbm, 14, rfl⟩
abbrev main_v8 : Ref sig .tc := ⟨.hbm, 15, rfl⟩
abbrev main_c_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_c_1 : Ref sig .tc := ⟨.hbm, 22, rfl⟩
abbrev main_v14 : Ref sig .tc := ⟨.hbm, 23, rfl⟩
abbrev main_v15 : Ref sig .tc := ⟨.hbm, 24, rfl⟩
abbrev main_c_2 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst : Ref sig .tc := ⟨.hbm, 33, rfl⟩
abbrev main_v23 : Ref sig .tc := ⟨.hbm, 34, rfl⟩
abbrev main_c_3 : Ref sig .tc := ⟨.hbm, 35, rfl⟩
abbrev main_v24 : Ref sig .tc := ⟨.hbm, 36, rfl⟩
abbrev main_v25 : Ref sig .tc := ⟨.hbm, 37, rfl⟩
abbrev main_c_4 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_5 : Ref sig .tc := ⟨.hbm, 44, rfl⟩
abbrev main_v31 : Ref sig .tc := ⟨.hbm, 45, rfl⟩
abbrev main_v32 : Ref sig .tc := ⟨.hbm, 46, rfl⟩
abbrev main_c_6 : Ref sig .tc := ⟨.hbm, 47, rfl⟩
abbrev main_v33 : Ref sig .tc := ⟨.hbm, 48, rfl⟩
abbrev main_v34 : Ref sig .tc := ⟨.hbm, 49, rfl⟩
abbrev main_c_7 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_cst_8 : Ref sig .tc := ⟨.hbm, 59, rfl⟩
abbrev main_v43 : Ref sig .tc := ⟨.hbm, 60, rfl⟩
abbrev main_cst_9 : Ref sig .tc := ⟨.hbm, 61, rfl⟩
abbrev main_v44 : Ref sig .tc := ⟨.hbm, 62, rfl⟩
abbrev main_call0_c : Ref sig .tc := ⟨.hbm, 63, rfl⟩
abbrev main_call0_v0 : Ref sig .tc := ⟨.hbm, 64, rfl⟩
abbrev main_call0_v1 : Ref sig .tc := ⟨.hbm, 65, rfl⟩
abbrev main_call0_c_0 : Ref sig .tc := ⟨.hbm, 66, rfl⟩
abbrev main_call0_v2 : Ref sig .tc := ⟨.hbm, 67, rfl⟩
abbrev main_call0_v3 : Ref sig .tc := ⟨.hbm, 68, rfl⟩
abbrev main_call0_v4 : Ref sig .tc := ⟨.hbm, 69, rfl⟩
abbrev main_call0_v5 : Ref sig .tc := ⟨.hbm, 70, rfl⟩
abbrev main_call0_c_1 : Ref sig .tc := ⟨.hbm, 71, rfl⟩
abbrev main_call0_c_2 : Ref sig .tc := ⟨.hbm, 72, rfl⟩
abbrev main_call0_v6 : Ref sig .tc := ⟨.hbm, 73, rfl⟩
abbrev main_call0_v7 : Ref sig .tc := ⟨.hbm, 74, rfl⟩
abbrev main_call0_v8 : Ref sig .tc := ⟨.hbm, 75, rfl⟩
abbrev main_call0_v9 : Ref sig .tc := ⟨.hbm, 76, rfl⟩
abbrev main_call0_v10 : Ref sig .tc := ⟨.hbm, 77, rfl⟩
abbrev main_call0_v11 : Ref sig .tc := ⟨.hbm, 78, rfl⟩
abbrev main_call0_c_3 : Ref sig .tc := ⟨.hbm, 79, rfl⟩
abbrev main_call0_v12 : Ref sig .tc := ⟨.hbm, 80, rfl⟩
abbrev main_call0_v13 : Ref sig .tc := ⟨.hbm, 81, rfl⟩
abbrev main_call0_v14 : Ref sig .tc := ⟨.hbm, 82, rfl⟩
abbrev main_call0_cst : Ref sig .tc := ⟨.hbm, 83, rfl⟩
abbrev main_call0_v15 : Ref sig .tc := ⟨.hbm, 84, rfl⟩
abbrev main_v45 : Ref sig .tc := ⟨.hbm, 85, rfl⟩
abbrev main_v46 : Ref sig .tc := ⟨.hbm, 86, rfl⟩
abbrev main_v47 : Ref sig .tc := ⟨.hbm, 87, rfl⟩
abbrev main_v48 : Ref sig .tc := ⟨.hbm, 88, rfl⟩
abbrev main_v49 : Ref sig .tc := ⟨.hbm, 89, rfl⟩
abbrev main_cst_10 : Ref sig .tc := ⟨.hbm, 90, rfl⟩
abbrev main_v50 : Ref sig .tc := ⟨.hbm, 91, rfl⟩
abbrev main_cst_11 : Ref sig .tc := ⟨.hbm, 92, rfl⟩
abbrev main_v51 : Ref sig .tc := ⟨.hbm, 93, rfl⟩
abbrev main_v52 : Ref sig .tc := ⟨.hbm, 94, rfl⟩
abbrev main_cst_12 : Ref sig .tc := ⟨.hbm, 95, rfl⟩
abbrev main_v53 : Ref sig .tc := ⟨.hbm, 96, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S8x64000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x64000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x64000 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  slices_S3200000x2_S3200000x1_0_0 : S3200000x2.Slices ![0, 0] S3200000x1
  shapeCasts_S3200000x1_S3200000 : S3200000x1.ShapeCasts S3200000
  shapeCasts_S3200000_S1x3200000 : S3200000.ShapeCasts S1x3200000
  bcast_S_S3200000 : S_.BroadcastsInDim S3200000 (![] : Fin 0 → Fin S3200000.rank)
  bcast_S3200000_S3200000x1_0 : S3200000.BroadcastsInDim S3200000x1 (![0] : Fin 1 → Fin S3200000x1.rank)
  inb_S1x64000_S1x64000_0_0 : ∀ a, (![0, 0] : Fin 2 → Nat) a + S1x64000.size a ≤ S1x64000.size a
  h_S1x64000 : 0 < S1x64000.numel
  shapeCasts_S1x64000_S1x64000 : S1x64000.ShapeCasts S1x64000
  inb_S8x64000_S8x64000_0_0 : ∀ a, (![0, 0] : Fin 2 → Nat) a + S8x64000.size a ≤ S8x64000.size a
  h_S8x64000 : 0 < S8x64000.numel
  shapeCasts_S8x64000_S8x64000 : S8x64000.ShapeCasts S8x64000
  broadcasts_S1x64000_S8x64000 : S1x64000.Broadcasts S8x64000
  bcast_S_S8x100000 : S_.BroadcastsInDim S8x100000 (![] : Fin 0 → Fin S8x100000.rank)
  reducesTo_S8x100000_S_d0_1 : S8x100000.ReducesTo [0, 1] S_
  h_S_ : 0 < S_.numel
  bcast_S_S64 : S_.BroadcastsInDim S64 (![] : Fin 0 → Fin S64.rank)
  bcast_S64_S64x1_0 : S64.BroadcastsInDim S64x1 (![0] : Fin 1 → Fin S64x1.rank)
  bcast_S_S64x1 : S_.BroadcastsInDim S64x1 (![] : Fin 0 → Fin S64x1.rank)
  bcast_S1_S1x1_1 : S1.BroadcastsInDim S1x1 (![1] : Fin 1 → Fin S1x1.rank)
  bcast_S1x1_S64x1_0_1 : S1x1.BroadcastsInDim S64x1 (![0, 1] : Fin 2 → Fin S64x1.rank)
  reducesTo_S64x1_S64_d1 : S64x1.ReducesTo [1] S64
  bcast_S64_S8x64_1 : S64.BroadcastsInDim S8x64 (![1] : Fin 1 → Fin S8x64.rank)
  bcast_S_S8x64 : S_.BroadcastsInDim S8x64 (![] : Fin 0 → Fin S8x64.rank)
  shapeCasts_S1_S_ : S1.ShapeCasts S_
  reducesTo_S8x64_S_d0_1 : S8x64.ReducesTo [0, 1] S_
  gather_S8x100000_S3200000x1_S8x3200000_0_1_n_n_1_1_81_wf : GatherDims.WF S8x100000 S3200000x1 S8x3200000 [0] [1] [] [1] [] 1 ![8, 1]
  scatter_S8x100000_S3200000x1_S8x3200000_0_1_1_1_wf : ScatterDims.WF S8x100000 S3200000x1 S8x3200000 [0] [1] [1] 1
  gather_S8x100000_S64x1_S8x64_0_1_n_n_1_1_81_wf : GatherDims.WF S8x100000 S64x1 S8x64 [0] [1] [] [1] [] 1 ![8, 1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x64000.size a ≤ S8x3200000.size a
  hwx0_0 : ∀ i : grid0.Coords, EltTy.bits .f32 = 32 ∨ (Rect.block (s := S8x3200000) S8x64000.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x64000.size a ≤ S1x3200000.size a
  hwx0_1 : ∀ i : grid0.Coords, EltTy.bits .f32 = 32 ∨ (Rect.block (s := S1x3200000) S1x64000.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x64000.size a ≤ S8x3200000.size a
  hwx0_2 : ∀ i : grid0.Coords, EltTy.bits .f32 = 32 ∨ (Rect.block (s := S8x3200000) S8x64000.size (cc0_transform_2 i) (hinb0_2 i)).WholeWords (EltTy.packing .f32)

variable [Facts₀]

def gather_S8x100000_S3200000x1_S8x3200000_0_1_n_n_1_1_81 : GatherDims S8x100000 S3200000x1 S8x3200000 where
  offsetDims := [0]
  collapsedSliceDims := [1]
  operandBatchingDims := []
  startIndicesBatchingDims := []
  startIndexMap := [1]
  indexVectorDim := 1
  sliceSizes := ![8, 1]
  wf := gather_S8x100000_S3200000x1_S8x3200000_0_1_n_n_1_1_81_wf
def scatter_S8x100000_S3200000x1_S8x3200000_0_1_1_1 : ScatterDims S8x100000 S3200000x1 S8x3200000 where
  updateWindowDims := [0]
  insertedWindowDims := [1]
  scatterDimsToOperandDims := [1]
  indexVectorDim := 1
  wf := scatter_S8x100000_S3200000x1_S8x3200000_0_1_1_1_wf
def gather_S8x100000_S64x1_S8x64_0_1_n_n_1_1_81 : GatherDims S8x100000 S64x1 S8x64 where
  offsetDims := [0]
  collapsedSliceDims := [1]
  operandBatchingDims := []
  startIndicesBatchingDims := []
  startIndexMap := [1]
  indexVectorDim := 1
  sliceSizes := ![8, 1]
  wf := gather_S8x100000_S64x1_S8x64_0_1_n_n_1_1_81_wf

abbrev win0_0 : Pipeline.Window sig grid0 :=
  Pipeline.Window.ofSpec (Memref.whole main_v21) S8x64000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S1x64000.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v22) S8x64000.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8x100000 : Shape := ⟨2, ![8, 100000]⟩
abbrev S2x3200000 : Shape := ⟨2, ![2, 3200000]⟩
abbrev S3200000x2 : Shape := ⟨2, ![3200000, 2]⟩
abbrev S64 : Shape := ⟨1, ![64]⟩
abbrev S1 : Shape := ⟨1, ![1]⟩
abbrev S1x3200000 : Shape := ⟨2, ![1, 3200000]⟩
abbrev S3200000 : Shape := ⟨1, ![3200000]⟩
abbrev S3200000x1 : Shape := ⟨2, ![3200000, 1]⟩
abbrev S_ : Shape := ⟨0, ![]⟩
abbrev S8x3200000 : Shape := ⟨2, ![8, 3200000]⟩
abbrev S64x1 : Shape := ⟨2, ![64, 1]⟩
abbrev S8x64 : Shape := ⟨2, ![8, 64]⟩

abbrev nBuf : Space → Nat
  | .hbm => 81
  | .vmem => 0
  | .smem => 0
  | _ => 0

abbrev bufTy : (tb : Table) → Fin (tcTables nBuf tb) → BufTy
  | .hbm, ⟨0, _⟩ => ⟨S8x100000, .f32⟩
  | .hbm, ⟨1, _⟩ => ⟨S8x100000, .f32⟩
  | .hbm, ⟨2, _⟩ => ⟨S2x3200000, .i32⟩
  | .hbm, ⟨3, _⟩ => ⟨S3200000x2, .f32⟩
  | .hbm, ⟨4, _⟩ => ⟨S64, .i32⟩
  | .hbm, ⟨5, _⟩ => ⟨S1, .f32⟩
  | .hbm, ⟨6, _⟩ => ⟨S1x3200000, .i32⟩
  | .hbm, ⟨7, _⟩ => ⟨S3200000, .i32⟩
  | .hbm, ⟨8, _⟩ => ⟨S1x3200000, .i32⟩
  | .hbm, ⟨9, _⟩ => ⟨S3200000, .i32⟩
  | .hbm, ⟨10, _⟩ => ⟨S3200000x1, .f32⟩
  | .hbm, ⟨11, _⟩ => ⟨S3200000, .f32⟩
  | .hbm, ⟨12, _⟩ => ⟨S_, .i32⟩
  | .hbm, ⟨13, _⟩ => ⟨S3200000, .i32⟩
  | .hbm, ⟨14, _⟩ => ⟨S3200000, .i1⟩
  | .hbm, ⟨15, _⟩ => ⟨S_, .i32⟩
  | .hbm, ⟨16, _⟩ => ⟨S3200000, .i32⟩
  | .hbm, ⟨17, _⟩ => ⟨S3200000, .i32⟩
  | .hbm, ⟨18, _⟩ => ⟨S3200000, .i32⟩
  | .hbm, ⟨19, _⟩ => ⟨S3200000x1, .i32⟩
  | .hbm, ⟨20, _⟩ => ⟨S8x3200000, .f32⟩
  | .hbm, ⟨21, _⟩ => ⟨S_, .i32⟩
  | .hbm, ⟨22, _⟩ => ⟨S3200000, .i32⟩
  | .hbm, ⟨23, _⟩ => ⟨S3200000, .i1⟩
  | .hbm, ⟨24, _⟩ => ⟨S_, .i32⟩
  | .hbm, ⟨25, _⟩ => ⟨S3200000, .i32⟩
  | .hbm, ⟨26, _⟩ => ⟨S3200000, .i32⟩
  | .hbm, ⟨27, _⟩ => ⟨S3200000, .i32⟩
  | .hbm, ⟨28, _⟩ => ⟨S3200000x1, .i32⟩
  | .hbm, ⟨29, _⟩ => ⟨S8x3200000, .f32⟩
  | .hbm, ⟨30, _⟩ => ⟨S8x3200000, .f32⟩
  | .hbm, ⟨31, _⟩ => ⟨S1x3200000, .f32⟩
  | .hbm, ⟨32, _⟩ => ⟨S8x3200000, .f32⟩
  | .hbm, ⟨33, _⟩ => ⟨S8x3200000, .f32⟩
  | .hbm, ⟨34, _⟩ => ⟨S_, .f32⟩
  | .hbm, ⟨35, _⟩ => ⟨S8x100000, .f32⟩
  | .hbm, ⟨36, _⟩ => ⟨S_, .i32⟩
  | .hbm, ⟨37, _⟩ => ⟨S3200000, .i32⟩
  | .hbm, ⟨38, _⟩ => ⟨S3200000, .i1⟩
  | .hbm, ⟨39, _⟩ => ⟨S_, .i32⟩
  | .hbm, ⟨40, _⟩ => ⟨S3200000, .i32⟩
  | .hbm, ⟨41, _⟩ => ⟨S3200000, .i32⟩
  | .hbm, ⟨42, _⟩ => ⟨S3200000, .i32⟩
  | .hbm, ⟨43, _⟩ => ⟨S3200000x1, .i32⟩
  | .hbm, ⟨44, _⟩ => ⟨S8x100000, .f32⟩
  | .hbm, ⟨45, _⟩ => ⟨S8x3200000, .f32⟩
  | .hbm, ⟨46, _⟩ => ⟨S_, .i32⟩
  | .hbm, ⟨47, _⟩ => ⟨S3200000, .i32⟩
  | .hbm, ⟨48, _⟩ => ⟨S3200000, .i1⟩
  | .hbm, ⟨49, _⟩ => ⟨S_, .i32⟩
  | .hbm, ⟨50, _⟩ => ⟨S3200000, .i32⟩
  | .hbm, ⟨51, _⟩ => ⟨S3200000, .i32⟩
  | .hbm, ⟨52, _⟩ => ⟨S3200000, .i32⟩
  | .hbm, ⟨53, _⟩ => ⟨S3200000x1, .i32⟩
  | .hbm, ⟨54, _⟩ => ⟨S8x100000, .f32⟩
  | .hbm, ⟨55, _⟩ => ⟨S8x100000, .f32⟩
  | .hbm, ⟨56, _⟩ => ⟨S8x100000, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S_, .i32⟩
  | .hbm, ⟨62, _⟩ => ⟨S64, .i32⟩
  | .hbm, ⟨63, _⟩ => ⟨S64, .i1⟩
  | .hbm, ⟨64, _⟩ => ⟨S_, .i32⟩
  | .hbm, ⟨65, _⟩ => ⟨S64, .i32⟩
  | .hbm, ⟨66, _⟩ => ⟨S64, .i32⟩
  | .hbm, ⟨67, _⟩ => ⟨S64, .i32⟩
  | .hbm, ⟨68, _⟩ => ⟨S64x1, .i32⟩
  | .hbm, ⟨69, _⟩ => ⟨S8x64, .f32⟩
  | .hbm, ⟨70, _⟩ => ⟨S_, .f32⟩
  | .hbm, ⟨71, _⟩ => ⟨S8x64, .f32⟩
  | .hbm, ⟨72, _⟩ => ⟨S8x64, .f32⟩
  | .hbm, ⟨73, _⟩ => ⟨S8x64, .f32⟩
  | .hbm, ⟨74, _⟩ => ⟨S_, .f32⟩
  | .hbm, ⟨75, _⟩ => ⟨S_, .f32⟩
  | .hbm, ⟨76, _⟩ => ⟨S_, .f32⟩
  | .hbm, ⟨77, _⟩ => ⟨S_, .f32⟩
  | .hbm, ⟨78, _⟩ => ⟨S_, .f32⟩
  | .hbm, ⟨79, _⟩ => ⟨S_, .f32⟩
  | .hbm, ⟨80, _⟩ => ⟨S_, .f32⟩
  | _, _ => ⟨S8x100000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_c : Ref sig .tc := ⟨.hbm, 12, rfl⟩
abbrev main_v6 : Ref sig .tc := ⟨.hbm, 13, rfl⟩
abbrev main_v7 : Ref sig .tc := ⟨.hbm, 14, rfl⟩
abbrev main_c_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_c_1 : Ref sig .tc := ⟨.hbm, 21, rfl⟩
abbrev main_v13 : Ref sig .tc := ⟨.hbm, 22, rfl⟩
abbrev main_v14 : Ref sig .tc := ⟨.hbm, 23, rfl⟩
abbrev main_c_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst : Ref sig .tc := ⟨.hbm, 34, rfl⟩
abbrev main_v24 : Ref sig .tc := ⟨.hbm, 35, rfl⟩
abbrev main_c_3 : Ref sig .tc := ⟨.hbm, 36, rfl⟩
abbrev main_v25 : Ref sig .tc := ⟨.hbm, 37, rfl⟩
abbrev main_v26 : Ref sig .tc := ⟨.hbm, 38, rfl⟩
abbrev main_c_4 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_c_5 : Ref sig .tc := ⟨.hbm, 46, rfl⟩
abbrev main_v33 : Ref sig .tc := ⟨.hbm, 47, rfl⟩
abbrev main_v34 : Ref sig .tc := ⟨.hbm, 48, rfl⟩
abbrev main_c_6 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_cst_7 : Ref sig .tc := ⟨.hbm, 57, rfl⟩
abbrev main_v42 : Ref sig .tc := ⟨.hbm, 58, rfl⟩
abbrev main_cst_8 : Ref sig .tc := ⟨.hbm, 59, rfl⟩
abbrev main_v43 : Ref sig .tc := ⟨.hbm, 60, rfl⟩
abbrev main_c_9 : Ref sig .tc := ⟨.hbm, 61, rfl⟩
abbrev main_v44 : Ref sig .tc := ⟨.hbm, 62, rfl⟩
abbrev main_v45 : Ref sig .tc := ⟨.hbm, 63, rfl⟩
abbrev main_c_10 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_cst_11 : Ref sig .tc := ⟨.hbm, 74, rfl⟩
abbrev main_v55 : Ref sig .tc := ⟨.hbm, 75, rfl⟩
abbrev main_cst_12 : Ref sig .tc := ⟨.hbm, 76, rfl⟩
abbrev main_v56 : Ref sig .tc := ⟨.hbm, 77, rfl⟩
abbrev main_v57 : Ref sig .tc := ⟨.hbm, 78, rfl⟩
abbrev main_cst_13 : Ref sig .tc := ⟨.hbm, 79, rfl⟩
abbrev main_v58 : Ref sig .tc := ⟨.hbm, 80, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  slices_S3200000x2_S3200000x1_0_0 : S3200000x2.Slices ![0, 0] S3200000x1
  shapeCasts_S3200000x1_S3200000 : S3200000x1.ShapeCasts S3200000
  bcast_S_S3200000 : S_.BroadcastsInDim S3200000 (![] : Fin 0 → Fin S3200000.rank)
  bcast_S3200000_S3200000x1_0 : S3200000.BroadcastsInDim S3200000x1 (![0] : Fin 1 → Fin S3200000x1.rank)
  bcast_S3200000_S1x3200000_1 : S3200000.BroadcastsInDim S1x3200000 (![1] : Fin 1 → Fin S1x3200000.rank)
  bcast_S1x3200000_S8x3200000_0_1 : S1x3200000.BroadcastsInDim S8x3200000 (![0, 1] : Fin 2 → Fin S8x3200000.rank)
  bcast_S_S8x100000 : S_.BroadcastsInDim S8x100000 (![] : Fin 0 → Fin S8x100000.rank)
  reducesTo_S8x100000_S_d0_1 : S8x100000.ReducesTo [0, 1] S_
  h_S_ : 0 < S_.numel
  bcast_S_S64 : S_.BroadcastsInDim S64 (![] : Fin 0 → Fin S64.rank)
  bcast_S64_S64x1_0 : S64.BroadcastsInDim S64x1 (![0] : Fin 1 → Fin S64x1.rank)
  shapeCasts_S1_S_ : S1.ShapeCasts S_
  bcast_S_S8x64 : S_.BroadcastsInDim S8x64 (![] : Fin 0 → Fin S8x64.rank)
  reducesTo_S8x64_S_d0_1 : S8x64.ReducesTo [0, 1] S_
  gather_S8x100000_S3200000x1_S8x3200000_0_1_n_n_1_1_81_wf : GatherDims.WF S8x100000 S3200000x1 S8x3200000 [0] [1] [] [1] [] 1 ![8, 1]
  scatter_S8x100000_S3200000x1_S8x3200000_0_1_1_1_wf : ScatterDims.WF S8x100000 S3200000x1 S8x3200000 [0] [1] [1] 1
  gather_S8x100000_S64x1_S8x64_0_1_n_n_1_1_81_wf : GatherDims.WF S8x100000 S64x1 S8x64 [0] [1] [] [1] [] 1 ![8, 1]

variable [Facts₀]

def gather_S8x100000_S3200000x1_S8x3200000_0_1_n_n_1_1_81 : GatherDims S8x100000 S3200000x1 S8x3200000 where
  offsetDims := [0]
  collapsedSliceDims := [1]
  operandBatchingDims := []
  startIndicesBatchingDims := []
  startIndexMap := [1]
  indexVectorDim := 1
  sliceSizes := ![8, 1]
  wf := gather_S8x100000_S3200000x1_S8x3200000_0_1_n_n_1_1_81_wf
def scatter_S8x100000_S3200000x1_S8x3200000_0_1_1_1 : ScatterDims S8x100000 S3200000x1 S8x3200000 where
  updateWindowDims := [0]
  insertedWindowDims := [1]
  scatterDimsToOperandDims := [1]
  indexVectorDim := 1
  wf := scatter_S8x100000_S3200000x1_S8x3200000_0_1_1_1_wf
def gather_S8x100000_S64x1_S8x64_0_1_n_n_1_1_81 : GatherDims S8x100000 S64x1 S8x64 where
  offsetDims := [0]
  collapsedSliceDims := [1]
  operandBatchingDims := []
  startIndicesBatchingDims := []
  startIndexMap := [1]
  indexVectorDim := 1
  sliceSizes := ![8, 1]
  wf := gather_S8x100000_S64x1_S8x64_0_1_n_n_1_1_81_wf

class Facts : Prop extends Facts₀ where

variable [Facts]
-- ==== Proof.KernelTerms.lean ====
/-
  The values the kernel's program computes, as functions of its six arguments (the vocabulary of the value proof).

  The pallas_call multiplies, block by block, a conductance row  g : [1, E]  (broadcast over the 8 batch rows) with the
  head differences  d : [8, E]; grid point t handles the columns  [64000·t, 64000·(t+1)), and the 50 blocks tile the
  array, so the result array is the one function  flowsArr d g  of the two operand arrays:
      flowsArr d g (b, e) = g (0, e) · d (b, e).
  The host lines after the call read that array: two scatter-adds into zero arrays (by source and by target node),
  their sum, the mean squared violation, and the boundary term over 64 gathered node columns.
-/
import proofs.«427732_j58909771432750_3_alg».proof.Proof.Gen.KernelIdeal
import Idealize.ShloMosaic.Lib.ValueIdx

set_option maxRecDepth 16384

noncomputable section

namespace Cert.KernelIdeal.Val

open Cert.KernelIdeal Cert.KernelIdeal.Gen
open Idealize.ShloMosaic Idealize.ShloMosaic.ValueIdx

variable {F : FTy → Type} [FloatOps F]

/-! ## The program's values as functions of its six arguments -/

/-- Row `r` of the edge table as a vector of E node indices. -/
def edgeRow0 (a2 : IVec S2x3200000 32) : IVec S3200000 32 :=
  shapeCast S3200000 (extractStridedSlice S1x3200000 ![0, 0] a2 slices_S2x3200000_S1x3200000_0_0) shapeCasts_S1x3200000_S3200000
def edgeRow1 (a2 : IVec S2x3200000 32) : IVec S3200000 32 :=
  shapeCast S3200000 (extractStridedSlice S1x3200000 ![1, 0] a2 slices_S2x3200000_S1x3200000_1_0) shapeCasts_S1x3200000_S3200000

/-- An index vector with its negative entries wrapped once (w + 100000), as a column of start indices. -/
def wrapE (e : IVec S3200000 32) : IVec S3200000x1 32 :=
  broadcastInDim S3200000x1 ![0] bcast_S3200000_S3200000x1_0
    (select (cmpi .slt e (broadcastInDim S3200000 ![] bcast_S_S3200000 (constantI S_ 32 0#32)))
      (addi e (broadcastInDim S3200000 ![] bcast_S_S3200000 (constantI S_ 32 100000#32))) e)

/-- Head at the source node minus head at the target node, per batch row and edge. -/
def headDiff (a0 : FVec F S8x100000 .f32) (a2 : IVec S2x3200000 32) : FVec F S8x3200000 .f32 :=
  subf (Host.gather gather_S8x100000_S3200000x1_S8x3200000_0_1_n_n_1_1_81 a0 (wrapE (edgeRow0 a2)))
    (Host.gather gather_S8x100000_S3200000x1_S8x3200000_0_1_n_n_1_1_81 a0 (wrapE (edgeRow1 a2)))

/-- Column 0 of the edge attributes as a vector of E conductances, -/
def condVec (a3 : FVec F S3200000x2 .f32) : FVec F S3200000 .f32 :=
  shapeCast S3200000 (extractStridedSlice S3200000x1 ![0, 0] a3 slices_S3200000x2_S3200000x1_0_0) shapeCasts_S3200000x1_S3200000
/-- and as the [1, E] row the pallas_call takes. -/
def condRow (a3 : FVec F S3200000x2 .f32) : FVec F S1x3200000 .f32 :=
  shapeCast S1x3200000 (condVec a3) shapeCasts_S3200000_S1x3200000

/-- THE FLOWS: the conductance row, broadcast over the batch rows, times the head differences. -/
def flowsArr (d : FVec F S8x3200000 .f32) (g : FVec F S1x3200000 .f32) : FVec F S8x3200000 .f32 :=
  fun i => FloatOps.mulf (g (ix2 (0 : Fin 1) (⟨(i 1).val, idx2_lt1 i⟩ : Fin 3200000))) (d i)

/-- The [8, N] array of zeros the scatters start from. -/
def zeroN : FVec F S8x100000 .f32 :=
  broadcastInDim S8x100000 ![] bcast_S_S8x100000 (constant S_ .f32 0x00000000#32)

/-- Net flow per node as the kernel's program forms it: two scatter-adds into zeros, summed. -/
def netFlows (a2 : IVec S2x3200000 32) (fl : FVec F S8x3200000 .f32) : FVec F S8x100000 .f32 :=
  addf (Host.scatterAdd scatter_S8x100000_S3200000x1_S8x3200000_0_1_1_1 zeroN (wrapE (edgeRow0 a2)) fl)
    (Host.scatterAdd scatter_S8x100000_S3200000x1_S8x3200000_0_1_1_1 zeroN (wrapE (edgeRow1 a2)) (Host.negf fl))

/-- Mean over the 800000 entries of (net − demand)². -/
def continuity (net a1 : FVec F S8x100000 .f32) : FVec F S_ .f32 :=
  Host.divf (Host.reduceAdd (mulf (subf net a1) (subf net a1)) (constant S_ .f32 0x00000000#32) reducesTo_S8x100000_S_d0_1 h_S_)
    (constant S_ .f32 0x49435000#32)

/-- The 64 reservoir indices, negative ones wrapped once. -/
def wrapR (a4 : IVec S64 32) : IVec S64 32 :=
  select (cmpi .slt a4 (broadcastInDim S64 ![] bcast_S_S64 (constantI S_ 32 0#32)))
    (addi a4 (broadcastInDim S64 ![] bcast_S_S64 (constantI S_ 32 100000#32))) a4
def colR (a4 : IVec S64 32) : IVec S64x1 32 := broadcastInDim S64x1 ![0] bcast_S64_S64x1_0 (wrapR a4)

/-- The in-range test jnp.take makes of each wrapped index: 0 ≤ w ≤ 99999. -/
def inRange (a4 : IVec S64 32) : IVec S64 1 :=
  Host.reduce IntOp.andi
    (andi (cmpi .sge (colR a4) (broadcastInDim S64x1 ![] bcast_S_S64x1 (constantI S_ 32 0#32)))
      (cmpi .sle (colR a4) (broadcastInDim S64x1 ![0, 1] bcast_S1x1_S64x1_0_1 (broadcastInDim S1x1 ![1] bcast_S1_S1x1_1 (constantI S1 32 99999#32)))))
    (constantI S_ 1 1#1) reducesTo_S64x1_S64_d1 h_S_

/-- The gathered reservoir columns, -/
def gatherR (a0 : FVec F S8x100000 .f32) (a4 : IVec S64 32) : FVec F S8x64 .f32 :=
  Host.gather gather_S8x100000_S64x1_S8x64_0_1_n_n_1_1_81 a0 (colR a4)
/-- and jnp.take's result: those columns where the index is in range, the fill value elsewhere. -/
def takeR (a0 : FVec F S8x100000 .f32) (a4 : IVec S64 32) : FVec F S8x64 .f32 :=
  select (broadcastInDim S8x64 ![1] bcast_S64_S8x64_1 (inRange a4)) (gatherR a0 a4)
    (broadcastInDim S8x64 ![] bcast_S_S8x64 (constant S_ .f32 0x7FC00000#32))

/-- Mean over the 512 entries of (predicted reservoir head − reservoir head)². -/
def boundary (pred : FVec F S8x64 .f32) (a5 : FVec F S1 .f32) : FVec F S_ .f32 :=
  Host.divf (Host.reduceAdd
      (mulf (subf pred (broadcastInDim S8x64 ![] bcast_S_S8x64 (shapeCast S_ a5 shapeCasts_S1_S_)))
        (subf pred (broadcastInDim S8x64 ![] bcast_S_S8x64 (shapeCast S_ a5 shapeCasts_S1_S_))))
      (constant S_ .f32 0x00000000#32) reducesTo_S8x64_S_d0_1 h_S_)
    (constant S_ .f32 0x44000000#32)

/-- (continuity + boundary) · 1. -/
def total (l0 l1 : FVec F S_ .f32) : FVec F S_ .f32 := mulf (addf l0 l1) (constant S_ .f32 0x3F800000#32)

end Cert.KernelIdeal.Val

end
-- ==== Proof.KernelFlows.lean ====
/-
  The pallas_call's result array, as one function of its two operand arrays.

  Grid point t stages columns [64000·t, 64000·(t+1)) of the head differences d : [8, E] and of the conductance row
  g : [1, E], multiplies the row (broadcast over the 8 batch rows) into the block, and writes the product back to the
  same columns of the result. Each block it writes is therefore the restriction of ONE whole-array function,
      flowsArr d g (b, e) = g (0, e) · d (b, e),
  and since the 50 blocks tile the array, the array ends holding flowsArr d g.
-/
import proofs.«427732_j58909771432750_3_alg».proof.Proof.KernelIdealFrame
import proofs.«427732_j58909771432750_3_alg».proof.Proof.KernelTerms
import Idealize.ShloMosaic.Lib.Pipeline.Value
import Idealize.ShloMosaic.Lib.ValueIdx

set_option maxRecDepth 16384

noncomputable section

namespace Cert.KernelIdeal.Val

open Cert.KernelIdeal Cert.KernelIdeal.Gen Cert.KernelIdeal.GenP
open Idealize.ShloMosaic Idealize.ShloMosaic.TcCoe Idealize.ShloMosaic.ValueIdx Idealize.SL.Sem
open Idealize.ShloMosaic.Pipeline (Dat)

variable {F : FTy → Type} [FloatOps F]
variable (m : (ℓ : Loc nD τ sig) → Buf (Elt F) ℓ)

theorem hz : (![0, 0] : Fin 2 → Nat) = fun _ => 0 := funext fun a => by fin_cases a <;> rfl

/-- The body's product at an index of the block: the row's entry in that column times the block's entry. -/
theorem pay_apply (x1 : Vec F S1x64000 .f32) (x0 : Vec F S8x64000 .f32) (j : S8x64000.Idx) :
    k0_pay1 x1 x0 j = FloatOps.mulf (x1 (ix2 (0 : Fin 1) (⟨(j 1).val, idx2_lt1 j⟩ : Fin 64000))) (x0 j) := by
  unfold k0_pay1
  show FloatOps.mulf (broadcastTo S8x64000 (shapeCast S1x64000 x1 shapeCasts_S1x64000_S1x64000) broadcasts_S1x64000_S8x64000 j)
      (shapeCast S8x64000 x0 shapeCasts_S8x64000_S8x64000 j) = _
  rw [shapeCast_self, shapeCast_self]
  rw [broadcastTo_apply x1 broadcasts_S1x64000_S8x64000 j (ix2 (0 : Fin 1) (⟨(j 1).val, idx2_lt1 j⟩ : Fin 64000))
    (fun a => by match a with | ⟨0, _⟩ => rfl | ⟨1, _⟩ => rfl)]

/-- The output's block index is (0, t), and both inputs' blocks sit at the same (0, t). -/
theorem idx_facts : ∀ t : Fin cfg0.N, win0_0.index t (0 : Fin 2) = 0 ∧ win0_0.index t (1 : Fin 2) = win0_2.index t (1 : Fin 2)
    ∧ win0_1.index t (0 : Fin 2) = 0 ∧ win0_1.index t (1 : Fin 2) = win0_2.index t (1 : Fin 2)
    ∧ win0_2.index t (0 : Fin 2) = 0 ∧ win0_2.index t (1 : Fin 2) ≤ 49 :=
  (by decide +kernel : ∀ t : Fin grid0.N, _)

/-- Every column block 0 … 49 is some grid point's. -/
theorem idx_onto : ∀ q : Fin 50, ∃ t : Fin cfg0.N, win0_2.index t = ![0, q.val] :=
  (by decide +kernel : ∀ q : Fin 50, ∃ t : Fin grid0.N, win0_2.index t = ![0, q.val])

/-- WHAT POINT t WRITES BACK is block t of flowsArr of the two operand arrays as the region finds them. -/
theorem flushed_eq (c : Dev nD) (t : Fin cfg0.N) :
    (dats m 0 c).flushed 2 t
      = ((cfg0.win 2).blk t).view.read (Elt F) (flowsArr (V m c main_v21) (V m c main_v6)) := by
  show (cfg0.win 2).cut (grid0.coords t) ((dats m 0 c).after 2 t) = _
  rw [after0_2]
  unfold out0_2
  rw [View.canon_unit_zero hz]
  simp only [View.ld_unit_zero (S := S8x64000) hz, View.ld_unit_zero (S := S1x64000) hz]
  obtain ⟨e0, e1, e2, e3, e4, e5⟩ := idx_facts t
  funext j
  show k0_pay1 (iblk m c 1 t) (iblk m c 0 t) j = _
  rw [pay_apply]
  show FloatOps.mulf (V m c main_v6 (((cfg0.win 1).blk t).view.emb (ix2 (0 : Fin 1) (⟨(j 1).val, idx2_lt1 j⟩ : Fin 64000))))
        (V m c main_v21 (((cfg0.win 0).blk t).view.emb j))
      = FloatOps.mulf (V m c main_v6 (ix2 (0 : Fin 1) (⟨((((cfg0.win 2).blk t).view.emb j) 1).val, idx2_lt1 _⟩ : Fin 3200000)))
        (V m c main_v21 (((cfg0.win 2).blk t).view.emb j))
  have h0 : ((cfg0.win 0).blk t).view.emb j = ((cfg0.win 2).blk t).view.emb j := by
    funext a; apply Fin.ext
    match a with
    | ⟨0, _⟩ => show win0_0.index t (0 : Fin 2) * 8 + 1 * (j 0).val = win0_2.index t (0 : Fin 2) * 8 + 1 * (j 0).val; omega
    | ⟨1, _⟩ => show win0_0.index t (1 : Fin 2) * 64000 + 1 * (j 1).val = win0_2.index t (1 : Fin 2) * 64000 + 1 * (j 1).val; omega
  have h1 : ((cfg0.win 1).blk t).view.emb (ix2 (0 : Fin 1) (⟨(j 1).val, idx2_lt1 j⟩ : Fin 64000))
      = ix2 (0 : Fin 1) (⟨((((cfg0.win 2).blk t).view.emb j) 1).val, idx2_lt1 _⟩ : Fin 3200000) := by
    funext a; apply Fin.ext
    match a with
    | ⟨0, _⟩ => show win0_1.index t (0 : Fin 2) * 1 + 1 * 0 = 0; omega
    | ⟨1, _⟩ => show win0_1.index t (1 : Fin 2) * 64000 + 1 * (j 1).val = win0_2.index t (1 : Fin 2) * 64000 + 1 * (j 1).val; omega
  rw [h0, h1]

/-- An index of the array is in point t's block iff each coordinate is in the block's range on its axis. -/
theorem mem_blk (t : Fin cfg0.N) (i : S8x3200000.Idx) :
    i ∈ ((cfg0.win 2).blk t).view.set ↔ ∀ a : Fin 2, win0_2.index t a * S8x64000.size a ≤ (i a).val ∧ (i a).val < win0_2.index t a * S8x64000.size a + S8x64000.size a := by
  show i ∈ ((View.whole main_v22).slice (win0_2.rect t)).set ↔ _
  rw [View.set_slice_whole, Rect.mem_set_unit]
  exact Iff.rfl

/-- The blocks tile the array: column e lies in the block of point e / 64000. -/
theorem cover (i : S8x3200000.Idx) : ∃ t : Fin cfg0.N, (cfg0.win 2).flush t = true ∧ i ∈ ((cfg0.win 2).blk t).view.set := by
  have hi0 : (i 0).val < 8 := idx2_lt0 i
  have hi1 : (i 1).val < 3200000 := idx2_lt1 i
  obtain ⟨t, ht⟩ := idx_onto ⟨(i 1).val / 64000, by omega⟩
  have q0 : win0_2.index t (0 : Fin 2) = 0 := congrFun ht 0
  have q1 : win0_2.index t (1 : Fin 2) = (i 1).val / 64000 := congrFun ht 1
  refine ⟨t, flush0_2 t, ?_⟩
  rw [mem_blk]
  intro a
  match a with
  | ⟨0, _⟩ => show win0_2.index t (0 : Fin 2) * 8 ≤ (i 0).val ∧ (i 0).val < win0_2.index t (0 : Fin 2) * 8 + 8; omega
  | ⟨1, _⟩ => show win0_2.index t (1 : Fin 2) * 64000 ≤ (i 1).val ∧ (i 1).val < win0_2.index t (1 : Fin 2) * 64000 + 64000; omega

/-- THE RESULT ARRAY after the run: flowsArr of the two operand arrays. -/
theorem final22 (c : Dev nD) :
    (dats m 0 c).arrAt 2 cfg0.N = flowsArr (V m c main_v21) (V m c main_v6) :=
  (dats m 0 c).arrAt_eq_of_cover 2 (flowsArr (V m c main_v21) (V m c main_v6)) (fun t _ => flushed_eq m c t) cover

end Cert.KernelIdeal.Val

end
-- ==== Proof.KernelHost.lean ====
/-
  The kernel program's four results as functions of its arguments.

  Before the pallas_call the host lines form the head differences (two column gathers of the node heads, by the
  wrapped source and target indices, subtracted) and the conductance row; the call's result array is their flowsArr
  (the blocks tile the array); after it the host lines scatter-add the flows by source and their negation by target
  into two zero arrays, add the two, and reduce; and the boundary term gathers 64 node columns with an in-range test.
-/
import proofs.«427732_j58909771432750_3_alg».proof.Proof.KernelFlows
import Idealize.ShloMosaic.Lib.StableHlo.Run

set_option maxRecDepth 16384

noncomputable section

namespace Cert.KernelIdeal.Val

open Cert.KernelIdeal Cert.KernelIdeal.Gen Cert.KernelIdeal.GenP
open Idealize.ShloMosaic Idealize.ShloMosaic.TcCoe Idealize.ShloMosaic.ValueIdx Idealize.SL.Sem
open Idealize.ShloMosaic.StableHlo
open Idealize.ShloMosaic.Pipeline (Dat)

variable {F : FTy → Type} [FloatOps F]
variable (m : (ℓ : Loc nD τ sig) → Buf (Elt F) ℓ)

/-! ## The host lines before the call -/

/-- The source-node indices as the region finds them. -/
theorem V_v1 (c : Dev nD) : (V m c main_v1 : S3200000.Idx → BitVec 32) = edgeRow0 (m ((c : Thread nD τ).loc main_arg2)) := by
  show StableHlo.after hostOps0 (fun b => m (c, b)) (Proc.devRef .tc main_v1) = _
  after_results
  rfl

/-- The target-node indices. -/
theorem V_v3 (c : Dev nD) : (V m c main_v3 : S3200000.Idx → BitVec 32) = edgeRow1 (m ((c : Thread nD τ).loc main_arg2)) := by
  show StableHlo.after hostOps0 (fun b => m (c, b)) (Proc.devRef .tc main_v3) = _
  after_results
  rfl

/-- The conductance row. -/
theorem V_v6 (c : Dev nD) : (V m c main_v6 : S1x3200000.Idx → F .f32) = condRow (m ((c : Thread nD τ).loc main_arg3)) := by
  show StableHlo.after hostOps0 (fun b => m (c, b)) (Proc.devRef .tc main_v6) = _
  after_results
  rfl

/-- The head differences. -/
theorem V_v21 (c : Dev nD) : (V m c main_v21 : S8x3200000.Idx → F .f32)
    = headDiff (m ((c : Thread nD τ).loc main_arg0)) (m ((c : Thread nD τ).loc main_arg2)) := by
  show StableHlo.after hostOps0 (fun b => m (c, b)) (Proc.devRef .tc main_v21) = _
  after_results_simp
  rfl

/-! ## The host lines after the call -/

/-- What the lines after the call start from: the region-entry contents with the call's arrays at their final values. -/
def W (c : Dev nD) : Valuation τ sig (Elt F) :=
  Pipeline.withArrays (cfgs 0).spec c (V0 m c) fun w => (dats m 0 c).arrAt w (cfgs 0).N

/-- A buffer that is none of the call's arrays still holds its region-entry contents. -/
theorem W_of_ne (c : Dev nD) (b : Ref sig .tc) (hb : ∀ w, Pipeline.arrRef spec0 w ≠ b) :
    W m c (Proc.devRef .tc b) = V m c b :=
  Pipeline.withArrays_of_ne _ c (V0 m c) _ b hb

theorem W_v1 (c : Dev nD) : (W m c (Proc.devRef .tc main_v1) : S3200000.Idx → BitVec 32) = edgeRow0 (m ((c : Thread nD τ).loc main_arg2)) :=
  (W_of_ne m c main_v1 (by decide)).trans (V_v1 m c)
theorem W_v3 (c : Dev nD) : (W m c (Proc.devRef .tc main_v3) : S3200000.Idx → BitVec 32) = edgeRow1 (m ((c : Thread nD τ).loc main_arg2)) :=
  (W_of_ne m c main_v3 (by decide)).trans (V_v3 m c)
theorem W_arg0 (c : Dev nD) : W m c (Proc.devRef .tc main_arg0) = m ((c : Thread nD τ).loc main_arg0) :=
  (W_of_ne m c main_arg0 (by decide)).trans (V_main_arg0 m c)
theorem W_arg1 (c : Dev nD) : W m c (Proc.devRef .tc main_arg1) = m ((c : Thread nD τ).loc main_arg1) :=
  (W_of_ne m c main_arg1 (by decide)).trans (V_main_arg1 m c)
theorem W_arg4 (c : Dev nD) : W m c (Proc.devRef .tc main_arg4) = m ((c : Thread nD τ).loc main_arg4) :=
  (W_of_ne m c main_arg4 (by decide)).trans (V_main_arg4 m c)
theorem W_arg5 (c : Dev nD) : W m c (Proc.devRef .tc main_arg5) = m ((c : Thread nD τ).loc main_arg5) :=
  (W_of_ne m c main_arg5 (by decide)).trans (V_main_arg5 m c)

/-- The flows, as a function of the arguments. -/
abbrev flowsOf (c : Dev nD) : FVec F S8x3200000 .f32 :=
  flowsArr (headDiff (m ((c : Thread nD τ).loc main_arg0)) (m ((c : Thread nD τ).loc main_arg2))) (condRow (m ((c : Thread nD τ).loc main_arg3)))

/-- The call's result array holds the flows. -/
theorem arr22 (c : Dev nD) : (dats m 0 c).arrAt 2 cfg0.N = flowsOf m c := by
  rw [final22, V_v21, V_v6]

theorem W_v22 (c : Dev nD) : (W m c (Proc.devRef .tc main_v22) : S8x3200000.Idx → F .f32) = flowsOf m c :=
  (Pipeline.withArrays_arr spec0 launch0.win.arr_inj c _ _ 2).trans (arr22 m c)

/-- The continuity term after the run. -/
theorem tail_v44 (c : Dev nD) :
    (Pipeline.afterTail₀ cfgs (dats m) 0 (V0 m) [hostOps1, hostOps1_1, hostOps1_2] c main_v44 : S_.Idx → F .f32)
      = continuity (netFlows (m ((c : Thread nD τ).loc main_arg2)) (flowsOf m c)) (m ((c : Thread nD τ).loc main_arg1)) := by
  show StableHlo.after (List.flatten [hostOps1, hostOps1_1, hostOps1_2]) (W m c) (Proc.devRef .tc main_v44) = _
  simp only [hostOps1, hostOps1_1, hostOps1_2, List.flatten_cons, List.flatten_nil, List.append_nil, List.cons_append, List.nil_append]
  after_results_simp
  rw [W_v1, W_v3, W_v22, W_arg1]
  rfl

/-- The boundary term after the run. -/
theorem tail_v51 (c : Dev nD) :
    (Pipeline.afterTail₀ cfgs (dats m) 0 (V0 m) [hostOps1, hostOps1_1, hostOps1_2] c main_v51 : S_.Idx → F .f32)
      = boundary (takeR (m ((c : Thread nD τ).loc main_arg0)) (m ((c : Thread nD τ).loc main_arg4))) (m ((c : Thread nD τ).loc main_arg5)) := by
  show StableHlo.after (List.flatten [hostOps1, hostOps1_1, hostOps1_2]) (W m c) (Proc.devRef .tc main_v51) = _
  simp only [hostOps1, hostOps1_1, hostOps1_2, List.flatten_cons, List.flatten_nil, List.append_nil, List.cons_append, List.nil_append]
  after_results_simp
  try simp only [TRef.ofBuf, TRef.toBuf, cast_eq]
  rw [W_arg0, W_arg4, W_arg5]
  rfl

/-- The total after the run. -/
theorem tail_v53 (c : Dev nD) :
    (Pipeline.afterTail₀ cfgs (dats m) 0 (V0 m) [hostOps1, hostOps1_1, hostOps1_2] c main_v53 : S_.Idx → F .f32)
      = total (continuity (netFlows (m ((c : Thread nD τ).loc main_arg2)) (flowsOf m c)) (m ((c : Thread nD τ).loc main_arg1)))
          (boundary (takeR (m ((c : Thread nD τ).loc main_arg0)) (m ((c : Thread nD τ).loc main_arg4))) (m ((c : Thread nD τ).loc main_arg5))) := by
  show StableHlo.after (List.flatten [hostOps1, hostOps1_1, hostOps1_2]) (W m c) (Proc.devRef .tc main_v53) = _
  simp only [hostOps1, hostOps1_1, hostOps1_2, List.flatten_cons, List.flatten_nil, List.append_nil, List.cons_append, List.nil_append]
  after_results_simp
  try simp only [TRef.ofBuf, TRef.toBuf, cast_eq]
  rw [W_v1, W_v3, W_v22, W_arg0, W_arg1, W_arg4, W_arg5]
  rfl

/-! ## The run, read -/

/-- Every weakly fair execution of the kernel's program terminates with its four results at these functions of the
    argument arrays, and the arguments unchanged. -/
theorem run (ρ : Dev nD → PrngReg) :
    θ_run defs (onTc (τ := τ) (main (F := F))) ⟨m, fun _ => 0, ρ⟩ fun r => ∀ c : Dev nD,
      r.2.mem ((c.tc : Thread nD τ).loc main_v44)
          = continuity (netFlows (m ((c : Thread nD τ).loc main_arg2)) (flowsOf m c)) (m ((c : Thread nD τ).loc main_arg1))
      ∧ r.2.mem ((c.tc : Thread nD τ).loc main_v51)
          = boundary (takeR (m ((c : Thread nD τ).loc main_arg0)) (m ((c : Thread nD τ).loc main_arg4))) (m ((c : Thread nD τ).loc main_arg5))
      ∧ r.2.mem ((c.tc : Thread nD τ).loc main_v53)
          = total (continuity (netFlows (m ((c : Thread nD τ).loc main_arg2)) (flowsOf m c)) (m ((c : Thread nD τ).loc main_arg1)))
              (boundary (takeR (m ((c : Thread nD τ).loc main_arg0)) (m ((c : Thread nD τ).loc main_arg4))) (m ((c : Thread nD τ).loc main_arg5)))
      ∧ r.2.mem ((c.tc : Thread nD τ).loc main_v22) = flowsOf m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c =>
    ⟨((h c).2 main_v44 (Pipeline.mem_restRefs_of main_v44 (by decide) (by decide))).trans (tail_v44 m c),
      ((h c).2 main_v51 (Pipeline.mem_restRefs_of main_v51 (by decide) (by decide))).trans (tail_v51 m c),
      ((h c).2 main_v53 (Pipeline.mem_restRefs_of main_v53 (by decide) (by decide))).trans (tail_v53 m c),
      ((h c).1 2).trans (arr22 m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c)⟩)
    (run_main m ρ)

end Cert.KernelIdeal.Val

end
-- ==== Proof.LibScatterMask.lean ====
/-
  General lemmas on the host's accumulating scatter, on selects under a full mask, and on all-reduces by `and`,
  over arbitrary shapes and free of any program.

  * `scatterAdd_add_scatterAdd`: at the extended reals a scatter-add is its operand plus, at each element, the sum of
    the updates that land there; so the sum of a scatter-add into `z` and a scatter-add into an array of zeros is the
    second batch of updates scattered into the result of the first (jnp: `z.at[i].add(u) + zeros.at[j].add(v)`
    against `z.at[i].add(u).at[j].add(v)`). Addition of extended reals is a commutative monoid: no finiteness is used.
  * `bcast_zero_apply`: a broadcast of the f32 zero word reads 0 at every index.
  * `select_of_all_one`: a select under a mask that is one at every index is its first branch.
  * `reduce_andi_of_all`: a `stablehlo.reduce` by `and` from an initial one over an array of ones is one at every
    result index (the converse of the library's `Host.reduce_andi_eq_one`).
-/
import Idealize.ShloMosaic.PureOps.Ideal
import Idealize.ShloMosaic.PureOps.Ideal.Laws
import Idealize.ShloMosaic.PureOps.Reduce
import Idealize.ShloMosaic.Lib.ValueIdx

noncomputable section

namespace Cert.LibScatterMask

open Idealize.ShloMosaic

/-! ## Scatter-add -/

/-- The sum of a scatter-add into `z` and a scatter-add into an array `z'` of zeros is the second batch scattered
    into the result of the first: at every element both are the operand plus the two batches' sums landing there. -/
theorem scatterAdd_add_scatterAdd {s si su : Shape} {w : Nat} {φ : FTy} (d : ScatterDims s si su)
    (z z' : FVec Ideal s φ) (i₁ i₂ : IVec si w) (u₁ u₂ : FVec Ideal su φ) (hz' : ∀ i, z' i = 0) :
    addf (Host.scatterAdd d z i₁ u₁) (Host.scatterAdd d z' i₂ u₂)
      = Host.scatterAdd d (Host.scatterAdd d z i₁ u₁) i₂ u₂ := by
  funext i
  show Ideal.hostScatterAdd d z i₁ u₁ i + Ideal.hostScatterAdd d z' i₂ u₂ i
      = Ideal.hostScatterAdd d (Ideal.hostScatterAdd d z i₁ u₁) i₂ u₂ i
  simp only [Ideal.hostScatterAdd]
  rw [hz' i, zero_add]

/-- A broadcast of the zero word reads zero everywhere. -/
theorem bcast_zero_apply {t : Shape} (h : (⟨0, ![]⟩ : Shape).BroadcastsInDim t ![]) (i : t.Idx) :
    broadcastInDim t ![] h (constant (F := Ideal) ⟨0, ![]⟩ .f32 0x00000000#32) i = 0 := by
  unfold broadcastInDim
  exact Ideal.ofBits_zero_f32

/-! ## A mask of ones -/

/-- Under a mask that is one at every index a select is its first branch. -/
theorem select_of_all_one {s : Shape} {α : Type} (c : IVec s 1) (a b : s.Idx → α) (hc : ∀ i, c i = 1#1) :
    select c a b = a := by
  funext i
  rw [ValueIdx.select_apply, hc i]
  rfl

/-- A left fold by `and` from one over words that are all one is one. -/
theorem foldl_andi_of_all {ι : Type} (f : ι → BitVec 1) :
    ∀ (l : List ι), (∀ n ∈ l, f n = 1#1) → l.foldl (fun r n => IntOp.andi r (f n)) 1#1 = 1#1
  | [], _ => rfl
  | a :: l, h => by
    rw [List.foldl_cons, h a List.mem_cons_self]
    exact foldl_andi_of_all f l fun n hn => h n (List.mem_cons_of_mem _ hn)

/-- A reduce by `and`, started from one, of an array of ones is one at every result index. -/
theorem reduce_andi_of_all {s t u : Shape} {axes : List (Fin s.rank)} (x : s.Idx → BitVec 1) (init : u.Idx → BitVec 1)
    (h : s.ReducesTo axes t) (hu : 0 < u.numel) (hinit : init (Shape.Idx.first hu) = 1#1) (hx : ∀ i, x i = 1#1)
    (j : t.Idx) : Host.reduce IntOp.andi x init h hu j = 1#1 := by
  rw [Host.reduce_eq_foldl, hinit]
  exact foldl_andi_of_all x _ fun n _ => hx n

end Cert.LibScatterMask

end
-- ==== Proof.IndexWrap.lean ====
/-
  The wrapped index word: a node index  w  with  -100000 ≤ w < 100000, wrapped once as numpy wraps a negative index
  (w + 100000 when w < 0), lies in [0, 99999]. Read signed, the sum does not leave the 32-bit range.
-/
import Idealize.ShloMosaic.PureOps
import Idealize.ShloMosaic.Lib.Affine

namespace Cert.IndexWrap

open Idealize.ShloMosaic

private theorem bmod32 {n : Int} (h₁ : -2 ^ 31 ≤ n) (h₂ : n < 2 ^ 31) : n.bmod (2 ^ 32) = n :=
  Int.bmod_eq_of_le (by omega) (by omega)

/-- A node index `w` with  -100000 ≤ w < 100000, wrapped once, passes the test  0 ≤ w' ≤ 99999. -/
theorem wrapped_in_range (w : BitVec 32) (h₁ : IntOp.cmpi .sge w 4294867296#32 = 1#1)
    (h₂ : IntOp.cmpi .slt w 100000#32 = 1#1) :
    IntOp.cmpi .sge (Scalar.select (IntOp.cmpi .slt w 0#32) (IntOp.addi w 100000#32) w) 0#32 = 1#1
      ∧ IntOp.cmpi .sle (Scalar.select (IntOp.cmpi .slt w 0#32) (IntOp.addi w 100000#32) w) 99999#32 = 1#1 := by
  rw [IntOp.cmpi_sge, show (4294867296#32 : BitVec 32).toInt = -100000 from by decide] at h₁
  rw [IntOp.cmpi_slt, show (100000#32 : BitVec 32).toInt = 100000 from by decide] at h₂
  rw [IntOp.cmpi_sge, IntOp.cmpi_sle, show (0#32 : BitVec 32).toInt = 0 from by decide,
    show (99999#32 : BitVec 32).toInt = 99999 from by decide]
  by_cases hneg : w.toInt < 0
  · have hc : IntOp.cmpi .slt w 0#32 = 1#1 := IntOp.cmpi_slt.2 (by rw [show (0#32 : BitVec 32).toInt = 0 from by decide]; exact hneg)
    rw [hc]
    show 0 ≤ (IntOp.addi w 100000#32).toInt ∧ (IntOp.addi w 100000#32).toInt ≤ 99999
    have e : (IntOp.addi w 100000#32).toInt = w.toInt + 100000 := by
      rw [IntOp.addi, BitVec.toInt_add, show (100000#32 : BitVec 32).toInt = 100000 from by decide]
      exact bmod32 (by omega) (by omega)
    rw [e]; omega
  · have hc : ¬ IntOp.cmpi .slt w 0#32 = 1#1 := fun h => hneg (by
      have := IntOp.cmpi_slt.1 h
      rwa [show (0#32 : BitVec 32).toInt = 0 from by decide] at this)
    have e : Scalar.select (IntOp.cmpi .slt w 0#32) (IntOp.addi w 100000#32) w = w := if_neg hc
    rw [e]; omega

end Cert.IndexWrap
-- ==== Proof.KernelTake.lean ====
/-
  jnp.take's in-range test passes at every reservoir index that lies in [-100000, 100000): wrapped once, such an
  index is in [0, 99999], so the mask is one everywhere and the select keeps every gathered column.
-/
import proofs.«427732_j58909771432750_3_alg».proof.Proof.KernelTerms
import proofs.«427732_j58909771432750_3_alg».proof.Proof.LibScatterMask
import proofs.«427732_j58909771432750_3_alg».proof.Proof.IndexWrap

noncomputable section

namespace Cert.KernelIdeal.Val

open Cert.KernelIdeal Cert.KernelIdeal.Gen
open Idealize.ShloMosaic Idealize.ShloMosaic.ValueIdx

variable {F : FTy → Type} [FloatOps F]

/-- The in-range test is one at every reservoir index. -/
theorem inRange_all (a4 : IVec S64 32)
    (h4 : ∀ k : S64.Idx, IntOp.cmpi .sge (a4 k) 4294867296#32 = 1#1 ∧ IntOp.cmpi .slt (a4 k) 100000#32 = 1#1)
    (j : S64.Idx) : inRange a4 j = 1#1 := by
  unfold inRange
  refine Cert.LibScatterMask.reduce_andi_of_all _ _ _ _ rfl (fun i => ?_) j
  refine IntOp.andi_eq_one.2 ⟨?_, ?_⟩
  · exact (Cert.IndexWrap.wrapped_in_range _ (h4 _).1 (h4 _).2).1
  · exact (Cert.IndexWrap.wrapped_in_range _ (h4 _).1 (h4 _).2).2

/-- So jnp.take returns the gathered columns. -/
theorem takeR_eq (a0 : FVec F S8x100000 .f32) (a4 : IVec S64 32)
    (h4 : ∀ k : S64.Idx, IntOp.cmpi .sge (a4 k) 4294867296#32 = 1#1 ∧ IntOp.cmpi .slt (a4 k) 100000#32 = 1#1) :
    takeR a0 a4 = gatherR a0 a4 := by
  unfold takeR
  exact Cert.LibScatterMask.select_of_all_one _ _ _ (fun i => inRange_all a4 h4 _)

end Cert.KernelIdeal.Val

end
-- ==== Proof.PreDecode.lean ====
/-
  The added precondition, read back: every reservoir index w satisfies  -100000 ≤ w < 100000.

  The precondition is one bit, the conjunction of six all-reduces; the last two are the all-reduces over the 64
  reservoir indices of  w ≥ -100000  and of  w < 100000. Where the conjunction is one each conjunct is one, and an
  all-reduce by `and` that is one had a one at every index.
-/
import proofs.«427732_j58909771432750_3_alg».proof.Pre_finite_inputs
import proofs.«427732_j58909771432750_3_alg».proof.Proof.Gen.Pre_finite_inputs
import Idealize.ShloMosaic.Lib.ReduceAll
import Idealize.ShloMosaic.Lib.ValueIdx

noncomputable section

namespace Cert.PreDecode

open Idealize.ShloMosaic Cert.Pre_finite_inputs Cert.Pre_finite_inputs.Gen

variable {F : FTy → Type} [FloatOps F]

instance : Subsingleton S_.Idx := ⟨fun a b => funext fun d => d.elim0⟩

/-- Under the precondition every reservoir index, read signed, lies in [-100000, 100000). -/
theorem reservoir_in_range (a0 a1 : FVec F S8x100000 .f32) (a2 : IVec S2x3200000 32) (a3 : FVec F S3200000x2 .f32)
    (a4 : IVec S64 32) (a5 : FVec F S1 .f32)
    (h : Cert.Pre_finite_inputs.fn (F := F) a0 a1 a2 a3 a4 a5 = fun _ => 1#1) (k : S64.Idx) :
    IntOp.cmpi .sge (a4 k) 4294867296#32 = 1#1 ∧ IntOp.cmpi .slt (a4 k) 100000#32 = 1#1 := by
  have h0 := congrFun h ValueIdx.ix0
  dsimp only [Cert.Pre_finite_inputs.fn, Cert.Pre_finite_inputs.fn_part1] at h0
  obtain ⟨h22, h25⟩ := IntOp.andi_eq_one.1 h0
  obtain ⟨-, h21⟩ := IntOp.andi_eq_one.1 h22
  exact ⟨Host.reduce_andi_all _ _ _ _ _ h21 k, Host.reduce_andi_all _ _ _ _ _ h25 k⟩

end Cert.PreDecode

end
-- ==== Proof.RefBridge.lean ====
/-
  The reference's stages in the kernel program's vocabulary.

  Operation by operation the reference forms the same head differences, the same conductances, the same wrapped index
  columns, the same reductions; it differs in three places only. It multiplies the conductances in as a doubly
  broadcast vector (read at an index, the same row entry as flowsArr's); it scatters the negated flows INTO the result
  of the first scatter, where the kernel's program adds two scatters into zeros (one function, by the scatter law); and
  it indexes the reservoir columns directly, where the kernel's program tests the range first (KernelTake).
-/
import proofs.«427732_j58909771432750_3_alg».proof.Proof.Gen.ReferenceIdeal.Read
import proofs.«427732_j58909771432750_3_alg».proof.Proof.KernelTerms
import proofs.«427732_j58909771432750_3_alg».proof.Proof.LibScatterMask
import Idealize.ShloMosaic.Lib.Pipeline.Value

noncomputable section

namespace Cert.Bridge

open Idealize.ShloMosaic Idealize.ShloMosaic.ValueIdx
open Cert.ReferenceIdeal Cert.ReferenceIdeal.Read

variable {F : FTy → Type} [FloatOps F]
variable (x0 x1 : FVec F S8x100000 .f32) (x2 : IVec S2x3200000 32) (x3 : FVec F S3200000x2 .f32)
  (x4 : IVec S64 32) (x5 : FVec F S1 .f32)

/-! ## The stages that are the same terms -/

theorem ref_headDiff : val_main_v20 (F := F) x0 x2 = Cert.KernelIdeal.Val.headDiff x0 x2 := rfl
theorem ref_condVec : val_main_v5 (F := F) x3 = Cert.KernelIdeal.Val.condVec x3 := rfl

/-- The reference's net flows: the negated flows scattered by target into the flows scattered by source. -/
theorem ref_chain : val_main_v39 (F := F) x0 x2 x3
    = Host.scatterAdd Cert.KernelIdeal.scatter_S8x100000_S3200000x1_S8x3200000_0_1_1_1
        (Host.scatterAdd Cert.KernelIdeal.scatter_S8x100000_S3200000x1_S8x3200000_0_1_1_1 Cert.KernelIdeal.Val.zeroN
          (Cert.KernelIdeal.Val.wrapE (Cert.KernelIdeal.Val.edgeRow0 x2)) (val_main_v23 (F := F) x0 x2 x3))
        (Cert.KernelIdeal.Val.wrapE (Cert.KernelIdeal.Val.edgeRow1 x2)) (Host.negf (val_main_v23 (F := F) x0 x2 x3)) := rfl

theorem ref_continuity : val_main_v43 (F := F) x0 x1 x2 x3
    = Cert.KernelIdeal.Val.continuity (val_main_v39 (F := F) x0 x2 x3) x1 := rfl

theorem ref_boundary : val_main_v56 (F := F) x0 x4 x5
    = Cert.KernelIdeal.Val.boundary (Cert.KernelIdeal.Val.gatherR x0 x4) x5 := rfl

theorem ref_total : val_main_v58 (F := F) x0 x1 x2 x3 x4 x5
    = Cert.KernelIdeal.Val.total (val_main_v43 (F := F) x0 x1 x2 x3) (val_main_v56 (F := F) x0 x4 x5) := rfl

/-! ## The flows -/

/-- The reference's product of the doubly broadcast conductances with the head differences is flowsArr:
    at (b, e) both read conductance e. -/
theorem ref_flows : val_main_v23 (F := F) x0 x2 x3
    = Cert.KernelIdeal.Val.flowsArr (Cert.KernelIdeal.Val.headDiff x0 x2) (Cert.KernelIdeal.Val.condRow x3) := by
  funext i
  rw [val_main_v23_apply, val_main_v22_apply, val_main_v21_apply, ref_headDiff, ref_condVec]
  show _ = FloatOps.mulf (Cert.KernelIdeal.Val.condRow x3 (ix2 (0 : Fin 1) (⟨(i 1).val, idx2_lt1 i⟩ : Fin 3200000)))
      (Cert.KernelIdeal.Val.headDiff x0 x2 i)
  congr 1
  unfold Cert.KernelIdeal.Val.condRow
  exact (shapeCast_apply (Cert.KernelIdeal.Val.condVec x3) Cert.KernelIdeal.Gen.shapeCasts_S3200000_S1x3200000 _
    (idx_main_v21 (idx_main_v22 i))
    (by rewrite [Shape.rowMajor_val_one, Shape.rowMajor_val_two]; show (i 1).val = 0 * 3200000 + (i 1).val; omega)).symm

/-! ## The net flows, at the extended reals -/

/-- Scattering the second batch into the result of the first is adding two scatters into zeros. -/
theorem ref_netFlows (y0 : FVec Ideal S8x100000 .f32) (y2 : IVec S2x3200000 32) (y3 : FVec Ideal S3200000x2 .f32) :
    val_main_v39 (F := Ideal) y0 y2 y3 = Cert.KernelIdeal.Val.netFlows (F := Ideal) y2 (val_main_v23 (F := Ideal) y0 y2 y3) := by
  rw [ref_chain]
  unfold Cert.KernelIdeal.Val.netFlows
  exact (Cert.LibScatterMask.scatterAdd_add_scatterAdd _ _ _ _ _ _ _ (fun i => Cert.LibScatterMask.bcast_zero_apply _ i)).symm

end Cert.Bridge

end
-- ==== Proof.lean ====
/-
  Pipe-network physics loss: the kernel's program against its jnp reference, over the extended reals.

  Both programs gather the node heads at the (once wrapped) source and target indices of E = 3200000 edges, form the
  flows  q(b, e) = g(e) · (h(b, src e) − h(b, dst e)), scatter-add q by source and −q by target into an [8, N] array of
  net flows, and return the mean squared continuity violation, the mean squared reservoir-head error, their sum, and q.
  They differ in three places:
    * q is computed by a pallas_call over 50 column blocks of 64000 edges, against one jnp multiply by the broadcast
      conductances: the blocks tile the array and each is the restriction of the one function flowsArr (KernelFlows),
      which at (b, e) reads the same conductance as the reference's double broadcast (RefBridge.ref_flows);
    * the kernel's program adds two scatter-adds into zero arrays where the reference scatters the second batch into
      the result of the first: a scatter-add is the operand plus the sum of the updates landing at each element, so
      both are  0 + Σ_src q + Σ_dst (−q)  (LibScatterMask.scatterAdd_add_scatterAdd; addition of extended reals is a
      commutative monoid, so no finiteness is used);
    * the kernel's program reads the reservoir columns with jnp.take, which fills out-of-range indices, where the
      reference indexes (and clamps): under the added precondition  −N ≤ reservoir_nodes < N  (outside it the reference
      indexes out of range) the once wrapped index is in range, the mask is all ones, and the two gathers are one term.
  The frames of the two kernel programs are their frame runs; the reference's frame is its run with the results
  dropped; the ideal pass rewrote nothing, so `preserves` is `True`.
-/
import proofs.«427732_j58909771432750_3_alg».proof.Defs
import proofs.«427732_j58909771432750_3_alg».proof.Proof.Gen.Kernel
import proofs.«427732_j58909771432750_3_alg».proof.Proof.Gen.Kernel.Skeleton
import proofs.«427732_j58909771432750_3_alg».proof.Proof.Gen.Kernel.Launch
import proofs.«427732_j58909771432750_3_alg».proof.Proof.Gen.Kernel.Points
import proofs.«427732_j58909771432750_3_alg».proof.Proof.KernelFrame
import proofs.«427732_j58909771432750_3_alg».proof.Proof.Gen.KernelIdeal
import proofs.«427732_j58909771432750_3_alg».proof.Proof.Gen.KernelIdeal.Skeleton
import proofs.«427732_j58909771432750_3_alg».proof.Proof.Gen.KernelIdeal.Launch
import proofs.«427732_j58909771432750_3_alg».proof.Proof.Gen.KernelIdeal.Points
import proofs.«427732_j58909771432750_3_alg».proof.Proof.KernelIdealFrame
import proofs.«427732_j58909771432750_3_alg».proof.Proof.Gen.ReferenceIdeal
import proofs.«427732_j58909771432750_3_alg».proof.Proof.Gen.ReferenceIdeal.Run
import proofs.«427732_j58909771432750_3_alg».proof.Proof.Gen.ReferenceIdeal.Read
import proofs.«427732_j58909771432750_3_alg».proof.Proof.Gen.Pre_finite_inputs
import proofs.«427732_j58909771432750_3_alg».proof.Proof.KernelHost
import proofs.«427732_j58909771432750_3_alg».proof.Proof.KernelTake
import proofs.«427732_j58909771432750_3_alg».proof.Proof.PreDecode
import proofs.«427732_j58909771432750_3_alg».proof.Proof.RefBridge
import Idealize.ShloMosaic.Adequacy
import Idealize.ShloMosaic.Init

noncomputable section

namespace Cert.Proof

open Idealize.ShloMosaic Idealize.SL.Sem

/-- The word-level kernel program runs and keeps its arguments: its frame run. -/
theorem frame_k : Cert.frame_Kernel := fun m ρ _ => Cert.Kernel.GenP.frame m ρ

/-- So does the idealized one. -/
theorem frame_ki : Cert.frame_KernelIdeal := fun m ρ _ => Cert.KernelIdeal.GenP.frame m ρ

/-- The reference is a host program: its run, with the results dropped. -/
theorem frame_ri : Cert.frame_ReferenceIdeal := fun m ρ _ =>
  (θ_run Cert.ReferenceIdeal.defs _ _).mono (fun _ h c => (h c).2.2.2.2) (Cert.ReferenceIdeal.Value.run (F := Ideal) m ρ)

/-- From memories that agree on the arguments the two idealized programs end with equal results: the kernel program's
    four values (KernelHost.run), and the reference's stages rewritten into the same vocabulary. -/
theorem algebraic : Cert.algebraic_KernelIdeal_ReferenceIdeal := by
  intro m ρ m' ρ' hpre hagree
  refine ⟨_, _, _, _, Cert.KernelIdeal.Val.run (F := Ideal) m ρ, ?_⟩
  refine (θ_run Cert.ReferenceIdeal.defs _ _).mono (fun _ h c => ?_) (Cert.ReferenceIdeal.Value.run (F := Ideal) m' ρ')
  obtain ⟨e0, e1, e2, e3, e4, e5⟩ := hagree c
  obtain ⟨h0, h1, h2, h3, hargs⟩ := h c
  have h4 := Cert.PreDecode.reservoir_in_range _ _ _ _ _ _ (hpre c)
  refine ⟨?_, ?_, ?_, ?_, hargs⟩
  · rw [h0, Cert.ReferenceIdeal.Read.val_main_v43_eq, e0, e1, e2, e3, Cert.Bridge.ref_continuity,
      Cert.Bridge.ref_netFlows, Cert.Bridge.ref_flows]
  · refine h1.trans ?_
    rw [Cert.ReferenceIdeal.Read.val_main_v56_eq, e0, e4, e5, Cert.Bridge.ref_boundary,
      Cert.KernelIdeal.Val.takeR_eq _ _ h4]
  · rw [h2, Cert.ReferenceIdeal.Read.val_main_v58_eq, e0, e1, e2, e3, e4, e5, Cert.Bridge.ref_total,
      Cert.Bridge.ref_continuity, Cert.Bridge.ref_netFlows, Cert.Bridge.ref_flows, Cert.Bridge.ref_boundary,
      Cert.KernelIdeal.Val.takeR_eq _ _ h4]
  · refine h3.trans ?_
    rw [Cert.ReferenceIdeal.Read.val_main_v23_eq, e0, e2, e3, Cert.Bridge.ref_flows]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
